-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S8x256x512 : Shape := ⟨3, ![8, 256, 512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S8x256x512 : S_.BroadcastsInDim S8x256x512 (![] : Fin 0 → Fin S8x256x512.rank)
  reducesTo_S8x256x512_S_d0_1_2 : S8x256x512.ReducesTo [0, 1, 2] S_

variable [Facts]

def fn {F : FTy → Type} [FloatOps F] (main_arg0 : FVec F S8x1024x512 .f32) (main_arg1 : FVec F S8x256x512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S8x256x512 .f32 := Host.absf main_arg1
  let main_cst_0 : FVec F S_ .f32 := constant S_ .f32 0x7F800000#32
  let main_v5 : FVec F S8x256x512 .f32 := broadcastInDim S8x256x512 ![] bcast_S_S8x256x512 main_cst_0
  let main_v6 : IVec S8x256x512 1 := cmpf .olt main_v4 main_v5
  let main_c_1 : IVec S_ 1 := constantI S_ 1 1#1
  let main_v7 : IVec S_ 1 := (fun x v => Host.reduce IntOp.andi x v reducesTo_S8x256x512_S_d0_1_2 h_S_) main_v6 main_c_1
  let main_v8 : IVec S_ 1 := andi main_v3 main_v7
  main_v8
-- ==== Kernel.lean ====
abbrev S8x1024x512 : Shape := ⟨3, ![8, 1024, 512]⟩
abbrev S8x256x512 : Shape := ⟨3, ![8, 256, 512]⟩
abbrev S8x64x4x512 : Shape := ⟨4, ![8, 64, 4, 512]⟩
abbrev S8x1024x64 : Shape := ⟨3, ![8, 1024, 64]⟩
abbrev S1x1024x512 : Shape := ⟨3, ![1, 1024, 512]⟩
abbrev S1x64x4x512 : Shape := ⟨4, ![1, 64, 4, 512]⟩
abbrev S1x1024x64 : Shape := ⟨3, ![1, 1024, 64]⟩
abbrev S64x4x512 : Shape := ⟨3, ![64, 4, 512]⟩
abbrev S64x512 : Shape := ⟨2, ![64, 512]⟩
abbrev S1024x512 : Shape := ⟨2, ![1024, 512]⟩
abbrev S1024 : Shape := ⟨1, ![1024]⟩
abbrev S1024x1 : Shape := ⟨2, ![1024, 1]⟩
abbrev S64 : Shape := ⟨1, ![64]⟩
abbrev S512x64 : Shape := ⟨2, ![512, 64]⟩
abbrev S1024x64 : Shape := ⟨2, ![1024, 64]⟩
abbrev S1x64 : Shape := ⟨2, ![1, 64]⟩

abbrev nBuf : Space → Nat
  | .hbm => 4
  | .vmem => 6
  | .smem => 0
  | _ => 0

abbrev bufTy : (tb : Table) → Fin (tcTables nBuf tb) → BufTy
  | .hbm, ⟨0, _⟩ => ⟨S8x1024x512, .f32⟩
  | .hbm, ⟨1, _⟩ => ⟨S8x256x512, .f32⟩
  | .hbm, ⟨2, _⟩ => ⟨S8x64x4x512, .f32⟩
  | .hbm, ⟨3, _⟩ => ⟨S8x1024x64, .f32⟩
  | .local _ .vmem, ⟨0, _⟩ => ⟨S1x1024x512, .f32⟩
  | .local _ .vmem, ⟨1, _⟩ => ⟨S1x1024x512, .f32⟩
  | .local _ .vmem, ⟨2, _⟩ => ⟨S1x64x4x512, .f32⟩
  | .local _ .vmem, ⟨3, _⟩ => ⟨S1x64x4x512, .f32⟩
  | .local _ .vmem, ⟨4, _⟩ => ⟨S1x1024x64, .f32⟩
  | .local _ .vmem, ⟨5, _⟩ => ⟨S1x1024x64, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x256x512_S8x64x4x512 : S8x256x512.ShapeCasts S8x64x4x512
  inb_S1x64x4x512_S1x64x4x512_0_0_0_0 : ∀ a, (![0, 0, 0, 0] : Fin 4 → Nat) a + S1x64x4x512.size a ≤ S1x64x4x512.size a
  h_S1x64x4x512 : 0 < S1x64x4x512.numel
  shapeCasts_S1x64x4x512_S64x4x512 : S1x64x4x512.ShapeCasts S64x4x512
  reduces_S64x4x512_S64x512 : S64x4x512.Reduces [1] S64x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  reduces_S1024x512_S1024 : S1024x512.Reduces [1] S1024
  shapeCasts_S1024_S1024x1 : S1024.ShapeCasts S1024x1
  reduces_S64x512_S64 : S64x512.Reduces [1] S64
  bitsLt_bf16_f32 : FTy.bits .bf16 < FTy.bits .f32
  transposes_S64x512_p1_0_S512x64 : S64x512.Transposes [1, 0] S512x64
  broadcasts_S1024x1_S1024x64 : S1024x1.Broadcasts S1024x64
  shapeCasts_S64_S1x64 : S64.ShapeCasts S1x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x4x512.size a ≤ S8x64x4x512.size a
  hwx0_1 : ∀ i : grid0.Coords, EltTy.bits .f32 = 32 ∨ (Rect.block (s := S8x64x4x512) S1x64x4x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S8x1024x64.size a
  hwx0_2 : ∀ i : grid0.Coords, EltTy.bits .f32 = 32 ∨ (Rect.block (s := S8x1024x64) S1x1024x64.size (cc0_transform_2 i) (hinb0_2 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1024x512 : Shape := ⟨3, ![8, 1024, 512]⟩
abbrev S8x256x512 : Shape := ⟨3, ![8, 256, 512]⟩
abbrev S8x64x4x512 : Shape := ⟨4, ![8, 64, 4, 512]⟩
abbrev S_ : Shape := ⟨0, ![]⟩
abbrev S8x64x512 : Shape := ⟨3, ![8, 64, 512]⟩
abbrev S8x1024x1x512 : Shape := ⟨4, ![8, 1024, 1, 512]⟩
abbrev S8x1x64x512 : Shape := ⟨4, ![8, 1, 64, 512]⟩
abbrev S8x1024x64x512 : Shape := ⟨4, ![8, 1024, 64, 512]⟩
abbrev S8x1024x64 : Shape := ⟨3, ![8, 1024, 64]⟩

abbrev nBuf : Space → Nat
  | .hbm => 17
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x256x512, .f32⟩
  | .hbm, ⟨2, _⟩ => ⟨S8x64x4x512, .f32⟩
  | .hbm, ⟨3, _⟩ => ⟨S_, .f32⟩
  | .hbm, ⟨4, _⟩ => ⟨S8x64x512, .f32⟩
  | .hbm, ⟨5, _⟩ => ⟨S_, .f32⟩
  | .hbm, ⟨6, _⟩ => ⟨S8x64x512, .f32⟩
  | .hbm, ⟨7, _⟩ => ⟨S8x64x512, .f32⟩
  | .hbm, ⟨8, _⟩ => ⟨S8x1024x1x512, .f32⟩
  | .hbm, ⟨9, _⟩ => ⟨S8x1x64x512, .f32⟩
  | .hbm, ⟨10, _⟩ => ⟨S8x1024x64x512, .f32⟩
  | .hbm, ⟨11, _⟩ => ⟨S8x1024x64x512, .f32⟩
  | .hbm, ⟨12, _⟩ => ⟨S8x1024x64x512, .f32⟩
  | .hbm, ⟨13, _⟩ => ⟨S8x1024x64x512, .f32⟩
  | .hbm, ⟨14, _⟩ => ⟨S_, .f32⟩
  | .hbm, ⟨15, _⟩ => ⟨S8x1024x64, .f32⟩
  | .hbm, ⟨16, _⟩ => ⟨S8x1024x64, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S8x256x512_S8x64x4x512 : S8x256x512.ShapeCasts S8x64x4x512
  reducesTo_S8x64x4x512_S8x64x512_d2 : S8x64x4x512.ReducesTo [2] S8x64x512
  h_S_ : 0 < S_.numel
  bcast_S_S8x64x512 : S_.BroadcastsInDim S8x64x512 (![] : Fin 0 → Fin S8x64x512.rank)
  bcast_S8x1024x512_S8x1024x1x512_0_1_3 : S8x1024x512.BroadcastsInDim S8x1024x1x512 (![0, 1, 3] : Fin 3 → Fin S8x1024x1x512.rank)
  bcast_S8x64x512_S8x1x64x512_0_2_3 : S8x64x512.BroadcastsInDim S8x1x64x512 (![0, 2, 3] : Fin 3 → Fin S8x1x64x512.rank)
  bcast_S8x1024x1x512_S8x1024x64x512_0_1_2_3 : S8x1024x1x512.BroadcastsInDim S8x1024x64x512 (![0, 1, 2, 3] : Fin 4 → Fin S8x1024x64x512.rank)
  bcast_S8x1x64x512_S8x1024x64x512_0_1_2_3 : S8x1x64x512.BroadcastsInDim S8x1024x64x512 (![0, 1, 2, 3] : Fin 4 → Fin S8x1024x64x512.rank)
  reducesTo_S8x1024x64x512_S8x1024x64_d3 : S8x1024x64x512.ReducesTo [3] S8x1024x64

variable [Facts₀]

class Facts : Prop extends Facts₀ where

variable [Facts]
-- ==== Proof.Spec.lean ====
/-
  The mathematics of the prototype-distance kernel, with no program in sight.

  Inputs: queries `q[b, r, c]` (8 × 1024 × 512) and support rows `s[b, n, c]` (8 × 256 × 512). The 256 support rows of a batch
  are 64 classes of 4 shots each, row `4 w + k` being shot `k` of class `w`. The PROTOTYPE of a class is the mean of its four
  shots, `p[b, w, c] = (Σ_k s[b, 4 w + k, c]) / 4`. The result is the negated squared distance of each query to each
  prototype, `out[b, r, w] = -Σ_c (q[b, r, c] - p[b, w, c])²`.

  Two arrangements of that number are stated here over the extended reals, each operation the exact one:
    * `negSqDist`: the definition, a difference squared and summed over the 512 features, then negated;
    * `expanded`: the square multiplied out, `2 · Σ_c q p - Σ_c q² - Σ_c p²`, subtracting in that order.
  They agree when every entry of `q` and `s` is a real number (`expanded_eq_negSqDist`): then every sum is a real number
  and the identity is `(a - p)² = a² - 2 a p + p²` summed over `c`. With an infinite entry they need not agree
  (`∞ - ∞` is `-∞` on the extended reals), which is why the law takes finiteness as a hypothesis.
-/
import Idealize.ShloMosaic.PureOps.Ideal
import Idealize.ShloMosaic.PureOps.Ideal.Laws
import Idealize.ShloMosaic.Lib.ValueIdx

noncomputable section

open scoped BigOperators

namespace Cert.ProtoDist

open Idealize.ShloMosaic Idealize.ShloMosaic.ValueIdx

/-- The queries' shape, the support rows' shape and the result's shape. -/
abbrev SQ : Shape := ⟨3, ![8, 1024, 512]⟩
abbrev SS : Shape := ⟨3, ![8, 256, 512]⟩
abbrev SO : Shape := ⟨3, ![8, 1024, 64]⟩

/-! ## The two float literals -/

/-- The pattern `0x40800000` is the real number 4: the number of shots the mean divides by. -/
theorem four_eq : Ideal.ofBits .f32 0x40800000#32 = ((4 : ℝ) : EReal) := by
  simp [Ideal.ofBits, Ideal.ieee, -EReal.coe_mul]; norm_num

/-- The pattern `0x40000000` is the real number 2: the factor of the cross term. -/
theorem two_eq : Ideal.ofBits .f32 0x40000000#32 = ((2 : ℝ) : EReal) := by
  simp [Ideal.ofBits, Ideal.ieee, -EReal.coe_mul]; norm_num

/-! ## The prototype and the two arrangements -/

/-- Support row `4 w + k`: shot `k` of class `w`. -/
def shotRow (w : Fin 64) (k : Fin 4) : Fin 256 := ⟨4 * w.val + k.val, by omega⟩

/-- The prototype of class `w` in batch `b` at feature `c`: the sum of the class's four shots divided by 4. -/
def proto (s : SS.Idx → EReal) (b : Fin 8) (w : Fin 64) (c : Fin 512) : EReal :=
  Ideal.div (∑ k : Fin 4, s (ix3 b (shotRow w k) c)) (Ideal.ofBits .f32 0x40800000#32)

/-- The square multiplied out: twice the inner product of query and prototype, less the query's squared norm, less the
    prototype's squared norm. -/
def expanded (q : SQ.Idx → EReal) (s : SS.Idx → EReal) (b : Fin 8) (r : Fin 1024) (w : Fin 64) : EReal :=
  Ideal.ofBits .f32 0x40000000#32 * (∑ c : Fin 512, q (ix3 b r c) * proto s b w c)
    - (∑ c : Fin 512, q (ix3 b r c) * q (ix3 b r c))
    - ∑ c : Fin 512, proto s b w c * proto s b w c

/-- The definition: the negated sum over the features of the squared difference of query and prototype. -/
def negSqDist (q : SQ.Idx → EReal) (s : SS.Idx → EReal) (b : Fin 8) (r : Fin 1024) (w : Fin 64) : EReal :=
  -(∑ c : Fin 512, (q (ix3 b r c) - proto s b w c) * (q (ix3 b r c) - proto s b w c))

/-! ## The law, over the reals first -/

/-- Over any finite index set and real families `a`, `p`:
    `2 Σ a p - Σ a² - Σ p² = -Σ (a - p)²`, term by term `(a - p)² = a² - 2 a p + p²`. -/
theorem real_law {ι : Type*} (S : Finset ι) (a p : ι → ℝ) :
    2 * (∑ c ∈ S, a c * p c) - (∑ c ∈ S, a c * a c) - (∑ c ∈ S, p c * p c)
      = -(∑ c ∈ S, (a c - p c) * (a c - p c)) := by
  rw [Finset.mul_sum, ← Finset.sum_sub_distrib, ← Finset.sum_sub_distrib, ← Finset.sum_neg_distrib]
  exact Finset.sum_congr rfl fun c _ => by ring

/-- A finite sum of real numbers, read on the extended reals, is the sum of the readings. -/
theorem coe_sum {ι : Type*} (S : Finset ι) (f : ι → ℝ) :
    ((∑ c ∈ S, f c : ℝ) : EReal) = ∑ c ∈ S, (f c : EReal) := by
  classical
  induction S using Finset.induction_on with
  | empty => simp
  | insert a S ha ih => rw [Finset.sum_insert ha, Finset.sum_insert ha, EReal.coe_add, ih]

/-- With real support rows the prototype is a real number: the shots' sum times one quarter. -/
theorem proto_coe (s : SS.Idx → EReal) (sr : SS.Idx → ℝ) (hs : ∀ i, s i = (sr i : EReal))
    (b : Fin 8) (w : Fin 64) (c : Fin 512) :
    proto s b w c = (((∑ k : Fin 4, sr (ix3 b (shotRow w k) c)) * (1 / 4) : ℝ) : EReal) := by
  unfold proto
  rw [four_eq, Ideal.div_coe (by norm_num : (4 : ℝ) ≠ 0), EReal.coe_mul, coe_sum]
  simp only [hs]

/-- THE LAW: where every query entry and every support entry is a real number, the multiplied-out arrangement is the
    negated squared distance. -/
theorem expanded_eq_negSqDist (q : SQ.Idx → EReal) (s : SS.Idx → EReal)
    (hq : ∀ i, ∃ x : ℝ, q i = (x : EReal)) (hs : ∀ i, ∃ x : ℝ, s i = (x : EReal))
    (b : Fin 8) (r : Fin 1024) (w : Fin 64) :
    expanded q s b r w = negSqDist q s b r w := by
  choose qr hqr using hq
  choose sr hsr using hs
  unfold expanded negSqDist
  simp only [proto_coe s sr hsr, hqr, two_eq]
  simp only [← EReal.coe_mul, ← EReal.coe_sub, ← coe_sum, ← EReal.coe_neg]
  exact congrArg Real.toEReal (real_law Finset.univ _ _)

end Cert.ProtoDist

end
-- ==== Proof.RefValue.lean ====
/-
  The reference program computes the negated squared distance.

  Its text broadcasts the queries to `[8, 1024, 1, 512]` then `[8, 1024, 64, 512]`, the prototypes (the support rows
  reshaped to `[8, 64, 4, 512]`, summed over the shot axis and divided by 4) to `[8, 1, 64, 512]` then `[8, 1024, 64, 512]`,
  subtracts, squares, sums over the feature axis from a zero initial value and negates. Read at the result index
  `(b, r, w)` and feature `c`, the query broadcast lands on `q[b, r, c]` and the prototype broadcast on `p[b, w, c]`; the
  reshape sends `(b, w, k, c)` of the four-axis view to support row `4 w + k` of batch `b`, by row-major position:
  `((b · 64 + w) · 4 + k) · 512 + c = (b · 256 + (4 w + k)) · 512 + c`. The zero initial values drop out (`0 + x = x`).
-/
import proofs.«166089_j27393301414373_1_alg».proof.Proof.Gen.ReferenceIdeal.Read
import proofs.«166089_j27393301414373_1_alg».proof.Proof.Spec

noncomputable section

open scoped BigOperators

namespace Cert.ProtoDist.Reference

open Idealize.ShloMosaic Idealize.ShloMosaic.ValueIdx Cert.ReferenceIdeal Cert.ReferenceIdeal.Gen Cert.ReferenceIdeal.Read
open Cert.ProtoDist

/-- Through the two broadcasts of the queries, feature `c` of result index `(b, r, w)` reads query entry `(b, r, c)`. -/
theorem query_idx (b : Fin 8) (r : Fin 1024) (w : Fin 64) (c : Fin 512) :
    idx_main_v4 (idx_main_v6 (idx_main_v10 (ix3 b r w) c)) = ix3 b r c :=
  funext fun a => Fin.ext (by match a with | ⟨0, _⟩ => rfl | ⟨1, _⟩ => rfl | ⟨2, _⟩ => rfl)

/-- Through the two broadcasts of the prototypes, feature `c` of result index `(b, r, w)` reads prototype entry `(b, w, c)`. -/
theorem proto_idx (b : Fin 8) (r : Fin 1024) (w : Fin 64) (c : Fin 512) :
    idx_main_v5 (idx_main_v7 (idx_main_v10 (ix3 b r w) c)) = ix3 b w c :=
  funext fun a => Fin.ext (by match a with | ⟨0, _⟩ => rfl | ⟨1, _⟩ => rfl | ⟨2, _⟩ => rfl)

/-- Through the reshape, shot `k` of prototype entry `(b, w, c)` reads support row `4 w + k` of batch `b` at feature `c`. -/
theorem shot_idx (b : Fin 8) (w : Fin 64) (c : Fin 512) (k : Fin 4) :
    idx_main_v0 (idx_main_v1 (ix3 b w c) k) = ix3 b (shotRow w k) c := by
  have hb := b.isLt; have hw := w.isLt; have hc := c.isLt; have hk := k.isLt
  funext a; apply Fin.ext
  match a with
  | ⟨0, _⟩ => show (((b.val * 64 + w.val) * 4 + k.val) * 512 + c.val) / 131072 = b.val; omega
  | ⟨1, _⟩ => show (((b.val * 64 + w.val) * 4 + k.val) * 512 + c.val) / 512 % 256 = 4 * w.val + k.val; omega
  | ⟨2, _⟩ => show (((b.val * 64 + w.val) * 4 + k.val) * 512 + c.val) % 512 = c.val; omega

/-- The reference's result at `(b, r, w)` is the negated squared distance of query `r` to prototype `w` in batch `b`. -/
theorem result_apply (x0 : (⟨S8x1024x512, .f32⟩ : BufTy).Contents (Elt Ideal)) (x1 : (⟨S8x256x512, .f32⟩ : BufTy).Contents (Elt Ideal))
    (b : Fin 8) (r : Fin 1024) (w : Fin 64) :
    val_main_v11 (F := Ideal) x0 x1 (ix3 b r w) = negSqDist x0 x1 b r w := by
  unfold negSqDist proto
  rw [val_main_v11_apply, val_main_v10_apply]
  simp only [val_main_v9_apply, val_main_v8_apply, val_main_v6_apply, val_main_v4_apply, val_main_v7_apply,
    val_main_v5_apply, query_idx, proto_idx, val_main_v3_apply, val_main_v2_apply, val_main_cst_0_apply,
    val_main_v1_apply, val_main_v0_apply, shot_idx, val_main_cst_apply, val_main_cst_1_apply,
    Ideal.hostNegf_def, Ideal.negf_def, Ideal.mulf_def, Ideal.subf_def, Ideal.hostDivf_def, Ideal.ofBits_def,
    Ideal.ofBits_zero_f32, zero_add]

/-- As a whole array: the reference's result is `negSqDist` of the two arguments at every index. -/
theorem result_eq (x0 : (⟨S8x1024x512, .f32⟩ : BufTy).Contents (Elt Ideal)) (x1 : (⟨S8x256x512, .f32⟩ : BufTy).Contents (Elt Ideal)) :
    val_main_v11 (F := Ideal) x0 x1 = fun i => negSqDist x0 x1 (i 0) (i 1) (i 2) := by
  funext i
  obtain ⟨b, r, w, rfl⟩ : ∃ (b : Fin 8) (r : Fin 1024) (w : Fin 64), i = ix3 b r w := ⟨i 0, i 1, i 2, eq_ix3 i⟩
  exact result_apply x0 x1 b r w

end Cert.ProtoDist.Reference

end
-- ==== Proof.Payload.lean ====
/-
  What the kernel body stores, read at one entry.

  At a grid point the body loads one batch's support block `v0 : [1, 64, 4, 512]` and query block `v5 : [1, 1024, 512]`.
  It forms the prototype matrix `P[w, c] = (Σ_k v0[0, w, k, c]) / 4` (a lane reduction over the shot axis, then a division by
  the splat 4), the query matrix `Q[r, c] = v5[0, r, c]`, and stores
      `2 · (Q Pᵀ)[r, w] - (Σ_c Q[r, c]²) - (Σ_c P[w, c]²)`
  where `Q Pᵀ` is a matrix product into a zero accumulator of the two matrices passed through a change of float format,
  which is the identity on the extended reals. The row norms are a lane reduction kept as a column `[1024, 1]` and
  broadcast along the classes; the prototype norms are a lane reduction laid as a row `[1, 64]` and broadcast down the
  queries. Each of those layout steps is read at an index below, and the matrix product is re-indexed from its
  one-axis contraction index to the feature `c : Fin 512`.
-/
import proofs.«166089_j27393301414373_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ProtoDist.Kernel

open Idealize.ShloMosaic Idealize.ShloMosaic.ValueIdx Cert.KernelIdeal Cert.KernelIdeal.Gen

/-! ## The matrix product's operand indices -/

/-- Row axis of the left operand: the result's row. -/
theorem lhs_axis0 (j : S1024x64.Idx) (k : dot_S1024x512_S512x64_S1024x64_1_0_0_1_n_n.contr.Idx) :
    (dot_S1024x512_S512x64_S1024x64_1_0_0_1_n_n.lhsIdx j k (0 : Fin S1024x512.rank)).val = (j (0 : Fin S1024x64.rank)).val := by
  unfold DotDims.lhsIdx
  rw [dif_neg (show ¬ (0 : Fin S1024x512.rank) ∈ dot_S1024x512_S512x64_S1024x64_1_0_0_1_n_n.lhsBatch by decide),
    dif_pos (show (0 : Fin S1024x512.rank) ∈ dot_S1024x512_S512x64_S1024x64_1_0_0_1_n_n.lhsNonContracting by decide)]
  rfl

/-- Column axis of the left operand: the contraction position. -/
theorem lhs_axis1 (j : S1024x64.Idx) (k : dot_S1024x512_S512x64_S1024x64_1_0_0_1_n_n.contr.Idx) :
    (dot_S1024x512_S512x64_S1024x64_1_0_0_1_n_n.lhsIdx j k (1 : Fin S1024x512.rank)).val = (k ⟨0, by decide⟩).val :=
  DotDims.lhsIdx_val_of_single _ rfl j k

/-- Row axis of the right operand: the contraction position. -/
theorem rhs_axis0 (j : S1024x64.Idx) (k : dot_S1024x512_S512x64_S1024x64_1_0_0_1_n_n.contr.Idx) :
    (dot_S1024x512_S512x64_S1024x64_1_0_0_1_n_n.rhsIdx j k (0 : Fin S512x64.rank)).val = (k ⟨0, by decide⟩).val :=
  DotDims.rhsIdx_val_of_single _ rfl j k

/-- Column axis of the right operand: the result's column. -/
theorem rhs_axis1 (j : S1024x64.Idx) (k : dot_S1024x512_S512x64_S1024x64_1_0_0_1_n_n.contr.Idx) :
    (dot_S1024x512_S512x64_S1024x64_1_0_0_1_n_n.rhsIdx j k (1 : Fin S512x64.rank)).val = (j (1 : Fin S1024x64.rank)).val := by
  unfold DotDims.rhsIdx
  rw [dif_neg (show ¬ (1 : Fin S512x64.rank) ∈ dot_S1024x512_S512x64_S1024x64_1_0_0_1_n_n.rhsBatch by decide),
    dif_pos (show (1 : Fin S512x64.rank) ∈ dot_S1024x512_S512x64_S1024x64_1_0_0_1_n_n.rhsNonContracting by decide)]
  rfl

/-- The product of a `[1024, 512]` and a `[512, 64]` matrix into the zero accumulator, at `(r, w)`: the sum over the 512
    features of the row's entry times the column's. -/
theorem cross_apply (A : FVec Ideal S1024x512 .bf16) (B : FVec Ideal S512x64 .bf16) (r : Fin 1024) (w : Fin 64) :
    matmul dot_S1024x512_S512x64_S1024x64_1_0_0_1_n_n none A B (constant S1024x64 .f32 0x00000000#32) (ix2 r w)
      = ∑ c : Fin 512, A (ix2 r c) * B (ix2 c w) := by
  simp only [matmul]
  rw [Ideal.matmul_constant_zero_apply,
    ← Equiv.sum_comp (contrEquiv1 dot_S1024x512_S512x64_S1024x64_1_0_0_1_n_n 512 (by decide) (by decide)).symm]
  refine Finset.sum_congr rfl fun c _ => ?_
  have hl : dot_S1024x512_S512x64_S1024x64_1_0_0_1_n_n.lhsIdx (ix2 r w)
      ((contrEquiv1 dot_S1024x512_S512x64_S1024x64_1_0_0_1_n_n 512 (by decide) (by decide)).symm c) = ix2 r c :=
    funext fun a => Fin.ext (by
      match a with
      | ⟨0, _⟩ => exact lhs_axis0 _ _
      | ⟨1, _⟩ => exact (lhs_axis1 _ _).trans (contrEquiv1_symm_val _ _ _ _ c))
  have hr : dot_S1024x512_S512x64_S1024x64_1_0_0_1_n_n.rhsIdx (ix2 r w)
      ((contrEquiv1 dot_S1024x512_S512x64_S1024x64_1_0_0_1_n_n 512 (by decide) (by decide)).symm c) = ix2 c w :=
    funext fun a => Fin.ext (by
      match a with
      | ⟨0, _⟩ => exact (rhs_axis0 _ _).trans (contrEquiv1_symm_val _ _ _ _ c)
      | ⟨1, _⟩ => exact rhs_axis1 _ _)
  rw [hl, hr]

/-! ## Lane reductions and column layouts read at an index -/

/-- The sum over the shot axis of a `[64, 4, 512]` vector, at `(w, c)`. -/
theorem shotSum_apply (x : FVec Ideal S64x4x512 .f32) (w : Fin 64) (c : Fin 512) :
    multiReduction .add [1] S64x512 x 0x00000000#32 reduces_S64x4x512_S64x512 (.inl rfl) rfl (ix2 w c)
      = ∑ k : Fin 4, x (ix3 w k c) :=
  (Ideal.multiReduction_add_single x _ reduces_S64x4x512_S64x512 (.inl rfl) rfl (ix2 w c)).trans
    (Finset.sum_congr rfl fun k _ => congrArg x (funext fun a => Fin.ext (by
      match a with | ⟨0, _⟩ => rfl | ⟨1, _⟩ => rfl | ⟨2, _⟩ => rfl)))

/-- The sum over the feature axis of a `[1024, 512]` vector, at `r`. -/
theorem rowSum_apply (x : FVec Ideal S1024x512 .f32) (r : Fin 1024) :
    multiReduction .add [1] S1024 x 0x00000000#32 reduces_S1024x512_S1024 (.inl rfl) rfl (ix1 r)
      = ∑ c : Fin 512, x (ix2 r c) :=
  (Ideal.multiReduction_add_single x _ reduces_S1024x512_S1024 (.inl rfl) rfl (ix1 r)).trans
    (Finset.sum_congr rfl fun k _ => congrArg x (funext fun a => Fin.ext (by
      match a with | ⟨0, _⟩ => rfl | ⟨1, _⟩ => rfl)))

/-- The sum over the feature axis of a `[64, 512]` vector, at `w`. -/
theorem classSum_apply (x : FVec Ideal S64x512 .f32) (w : Fin 64) :
    multiReduction .add [1] S64 x 0x00000000#32 reduces_S64x512_S64 (.inl rfl) rfl (ix1 w)
      = ∑ c : Fin 512, x (ix2 w c) :=
  (Ideal.multiReduction_add_single x _ reduces_S64x512_S64 (.inl rfl) rfl (ix1 w)).trans
    (Finset.sum_congr rfl fun k _ => congrArg x (funext fun a => Fin.ext (by
      match a with | ⟨0, _⟩ => rfl | ⟨1, _⟩ => rfl)))

/-- A vector `[1024]` laid as a column `[1024, 1]` reads, at `(r, u)`, the vector at `r`. -/
theorem column_apply (x : FVec Ideal S1024 .f32) (r : Fin 1024) (u : Fin 1) :
    shapeCast S1024x1 x shapeCasts_S1024_S1024x1 (ix2 r u) = x (ix1 r) :=
  shapeCast_apply x _ _ _ (by
    have hu : u.val = 0 := by omega
    rw [Shape.rowMajor_val_two, Shape.rowMajor_val_one]
    show r.val = r.val * 1 + u.val
    rw [hu, Nat.mul_one, Nat.add_zero])

/-- A column `[1024, 1]` broadcast along 64 classes reads, at `(r, w)`, the column at `r`. -/
theorem columnBroadcast_apply (x : FVec Ideal S1024x1 .f32) (r : Fin 1024) (w : Fin 64) :
    broadcastTo S1024x64 x broadcasts_S1024x1_S1024x64 (ix2 r w) = x (ix2 r (0 : Fin 1)) := by
  refine broadcastTo_apply x _ (ix2 r w) (ix2 r (0 : Fin 1)) fun ax => ?_
  match ax with
  | ⟨0, _⟩ => show r.val = if (1024 : Nat) = 1 then 0 else r.val; rw [if_neg (by decide)]
  | ⟨1, _⟩ => show 0 = if (1 : Nat) = 1 then 0 else w.val; rw [if_pos rfl]

/-! ## The body's two matrices -/

/-- The prototype matrix of the loaded support block: the shots' sum divided by the splat 4. -/
def protoMat (v0 : FVec Ideal S1x64x4x512 .f32) : FVec Ideal S64x512 .f32 :=
  divf (multiReduction .add [1] S64x512 (shapeCast S64x4x512 v0 shapeCasts_S1x64x4x512_S64x4x512) 0x00000000#32
      reduces_S64x4x512_S64x512 (.inl rfl) rfl)
    (broadcast S64x512 (Scalar.ofBits .f32 0x40800000#32))

/-- The query matrix of the loaded query block. -/
def queryMat (v5 : FVec Ideal S1x1024x512 .f32) : FVec Ideal S1024x512 .f32 :=
  shapeCast S1024x512 v5 shapeCasts_S1x1024x512_S1024x512

/-- The prototype matrix at `(w, c)`: the four shots of class `w` at feature `c`, summed and divided by 4. -/
theorem protoMat_apply (v0 : FVec Ideal S1x64x4x512 .f32) (w : Fin 64) (c : Fin 512) :
    protoMat v0 (ix2 w c) = Ideal.div (∑ k : Fin 4, v0 (ix4 (0 : Fin 1) w k c)) (Ideal.ofBits .f32 0x40800000#32) := by
  show Ideal.div (multiReduction .add [1] S64x512 (shapeCast S64x4x512 v0 shapeCasts_S1x64x4x512_S64x4x512) 0x00000000#32
      reduces_S64x4x512_S64x512 (.inl rfl) rfl (ix2 w c)) (Ideal.ofBits .f32 0x40800000#32) = _
  refine congrArg (Ideal.div · _) ?_
  exact (shotSum_apply _ w c).trans (Finset.sum_congr rfl fun k _ => shapeCast_1abc_abc_apply v0 _ w k c)

/-- The query matrix at `(r, c)`. -/
theorem queryMat_apply (v5 : FVec Ideal S1x1024x512 .f32) (r : Fin 1024) (c : Fin 512) :
    queryMat v5 (ix2 r c) = v5 (ix3 (0 : Fin 1) r c) :=
  shapeCast_1ab_ab_apply v5 _ r c

/-! ## The payload -/

/-- The body's stored value is this tree of operations over the two matrices (the payload's lines, substituted). -/
theorem payload_tree (v0 : FVec Ideal S1x64x4x512 .f32) (v5 : FVec Ideal S1x1024x512 .f32) :
    k0_pay1 (F := Ideal) v0 v5
      = shapeCast S1x1024x64
          (subf
            (subf
              (mulf (broadcast S1024x64 (Scalar.ofBits .f32 0x40000000#32))
                (matmul dot_S1024x512_S512x64_S1024x64_1_0_0_1_n_n none (truncf .bf16 (queryMat v5) bitsLt_bf16_f32)
                  (transpose S512x64 [1, 0] (truncf .bf16 (protoMat v0) bitsLt_bf16_f32) transposes_S64x512_p1_0_S512x64)
                  (constant S1024x64 .f32 0x00000000#32)))
              (broadcastTo S1024x64
                (shapeCast S1024x1
                  (multiReduction .add [1] S1024 (mulf (queryMat v5) (queryMat v5)) 0x00000000#32 reduces_S1024x512_S1024 (.inl rfl) rfl)
                  shapeCasts_S1024_S1024x1)
                broadcasts_S1024x1_S1024x64))
            (broadcastTo S1024x64
              (shapeCast S1x64
                (multiReduction .add [1] S64 (mulf (protoMat v0) (protoMat v0)) 0x00000000#32 reduces_S64x512_S64 (.inl rfl) rfl)
                shapeCasts_S64_S1x64)
              broadcasts_S1x64_S1024x64))
          shapeCasts_S1024x64_S1x1024x64 := rfl

/-- THE STORED ENTRY `(0, r, w)`: twice the inner product of query row `r` and prototype `w`, less the row's squared norm,
    less the prototype's squared norm. -/
theorem payload_apply (v0 : FVec Ideal S1x64x4x512 .f32) (v5 : FVec Ideal S1x1024x512 .f32) (r : Fin 1024) (w : Fin 64) :
    k0_pay1 (F := Ideal) v0 v5 (ix3 (0 : Fin 1) r w)
      = Ideal.ofBits .f32 0x40000000#32 * (∑ c : Fin 512, queryMat v5 (ix2 r c) * protoMat v0 (ix2 w c))
          - (∑ c : Fin 512, queryMat v5 (ix2 r c) * queryMat v5 (ix2 r c))
          - ∑ c : Fin 512, protoMat v0 (ix2 w c) * protoMat v0 (ix2 w c) := by
  rw [payload_tree]
  refine (shapeCast_ab_1ab_apply _ _ (0 : Fin 1) r w).trans ?_
  rw [subf_apply, subf_apply, mulf_apply, broadcast_apply, cross_apply,
    columnBroadcast_apply, column_apply, rowSum_apply,
    broadcastTo_1b_ab_apply, shapeCast_a_1a_apply, classSum_apply]
  simp only [truncf_apply, mulf_apply, Ideal.ofBits_def,
    transpose_ix2_apply (truncf .bf16 (protoMat v0) bitsLt_bf16_f32) transposes_S64x512_p1_0_S512x64]

end Cert.ProtoDist.Kernel

end
-- ==== Proof.KernelValue.lean ====
/-
  From the grid's blocks to the whole result array.

  The grid has one axis of 8 points, one per batch. At point `t` the query window stages block `(t, 0, 0)` of the queries
  (batch `t`, all 1024 rows, all 512 features), the support window block `(t, 0, 0, 0)` of the support rows viewed as
  `[8, 64, 4, 512]` (a reshape made before the region: entry `(b, w, k, c)` of the view is support row `4 w + k` of batch
  `b`), and the result window writes back block `(t, 0, 0)` of the result. So what point `t` writes back is the batch-`t`
  slice of ONE function of the two argument arrays, the multiplied-out distance `expanded`; the 8 blocks tile the result
  array (index `i` lies in the block of point `i 0`), and the array ends holding that function everywhere.
-/
import proofs.«166089_j27393301414373_1_alg».proof.Proof.Gen.KernelIdeal.Value
import proofs.«166089_j27393301414373_1_alg».proof.Proof.Spec
import proofs.«166089_j27393301414373_1_alg».proof.Proof.Payload
import Idealize.ShloMosaic.Lib.StableHlo.Run

noncomputable section

open scoped BigOperators

namespace Cert.ProtoDist.Kernel

open Idealize.ShloMosaic Idealize.ShloMosaic.TcCoe Idealize.ShloMosaic.ValueIdx Idealize.SL.Sem
open Cert.KernelIdeal Cert.KernelIdeal.Gen Cert.ProtoDist
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-! ## The index maps, and the batch of a point -/

/-- At point `t` every window's block index is `t` on the batch axis and `0` on the others (decided over the 8 points). -/
theorem block_indices : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0
    ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- The batch a grid point works on. -/
def batchOf (t : Fin cfg0.N) : Fin 8 := ⟨t.val, by have h : t.val < grid0.N := t.isLt; rw [N_0] at h; exact h⟩

/-! ## The input blocks are batch slices of the arguments -/

/-- The support array as the region finds it: the reshape of the second argument to `[8, 64, 4, 512]`. -/
theorem support_view (c : Dev nD) :
    (V m c main_v0 : S8x64x4x512.Idx → EReal)
      = shapeCast S8x64x4x512 (m ((c : Thread nD τ).loc main_arg1)) shapeCasts_S8x256x512_S8x64x4x512 := by
  dsimp only [Gen.V, Gen.hostOps0]; after_results; rfl

/-- The query block at point `t` is batch `t` of the queries. -/
theorem queryBlock_apply (c : Dev nD) (t : Fin cfg0.N) (r : Fin 1024) (f : Fin 512) :
    iblk m c 0 t (ix3 (0 : Fin 1) r f) = m ((c : Thread nD τ).loc main_arg0) (ix3 (batchOf t) r f) := by
  obtain ⟨e0, e1, e2, -⟩ := block_indices t
  show V m c main_arg0 (((cfg0.win 0).blk t).view.emb (ix3 (0 : Fin 1) r f)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * r.val = r.val; omega
  | ⟨2, _⟩ => show win0_0.index t (2 : Fin 3) * 512 + 1 * f.val = f.val; omega

/-- The support block at point `t`, at class `w`, shot `k`, is support row `4 w + k` of batch `t`. -/
theorem supportBlock_apply (c : Dev nD) (t : Fin cfg0.N) (w : Fin 64) (k : Fin 4) (f : Fin 512) :
    iblk m c 1 t (ix4 (0 : Fin 1) w k f) = m ((c : Thread nD τ).loc main_arg1) (ix3 (batchOf t) (shotRow w k) f) := by
  obtain ⟨-, -, -, e0, e1, e2, e3, -⟩ := block_indices t
  have ht : t.val < 8 := (batchOf t).isLt
  have hw := w.isLt; have hk := k.isLt; have hf := f.isLt
  show V m c main_v0 (((cfg0.win 1).blk t).view.emb (ix4 (0 : Fin 1) w k f)) = _
  rw [support_view]
  refine shapeCast_apply _ _ _ _ ?_
  show (S8x256x512.rowMajor (ix3 (batchOf t) (shotRow w k) f)).val
    = (S8x64x4x512.rowMajor (((cfg0.win 1).blk t).view.emb (ix4 (0 : Fin 1) w k f))).val
  rw [Shape.rowMajor_val_three, Shape.rowMajor_val_four]
  show (t.val * 256 + (4 * w.val + k.val)) * 512 + f.val
    = (((win0_1.index t (0 : Fin 4) * 1 + 1 * 0) * 64 + (win0_1.index t (1 : Fin 4) * 64 + 1 * w.val)) * 4
        + (win0_1.index t (2 : Fin 4) * 4 + 1 * k.val)) * 512 + (win0_1.index t (3 : Fin 4) * 512 + 1 * f.val)
  rw [e0, e1, e2, e3]
  omega

/-! ## What a point writes back -/

/-- Over blocks that are batch `b`'s slices of `q` and `s`, the body's stored entry `j = (0, r, w)` is the multiplied-out
    distance of query `r` to prototype `w` in batch `b`. -/
theorem block_entry (q : SQ.Idx → EReal) (s : SS.Idx → EReal) (b : Fin 8)
    (x0 : FVec Ideal S1x1024x512 .f32) (x1 : FVec Ideal S1x64x4x512 .f32)
    (h0 : ∀ (r : Fin 1024) (f : Fin 512), x0 (ix3 (0 : Fin 1) r f) = q (ix3 b r f))
    (h1 : ∀ (w : Fin 64) (k : Fin 4) (f : Fin 512), x1 (ix4 (0 : Fin 1) w k f) = s (ix3 b (shotRow w k) f))
    (j : S1x1024x64.Idx) :
    k0_pay1 (F := Ideal) x1 x0 j = expanded q s b (j 1) (j 2) := by
  obtain ⟨u, r, w, rfl⟩ : ∃ (u : Fin 1) (r : Fin 1024) (w : Fin 64), j = ix3 u r w := ⟨j 0, j 1, j 2, eq_ix3 j⟩
  have hu : u = 0 := Fin.ext (by omega)
  subst hu
  show _ = expanded q s b r w
  rw [payload_apply]
  unfold expanded proto
  simp only [queryMat_apply, protoMat_apply, h0, h1]

/-- The result array as ONE function of the two argument arrays. -/
def result (q : SQ.Idx → EReal) (s : SS.Idx → EReal) : SO.Idx → EReal := fun i => expanded q s (i 0) (i 1) (i 2)

/-- WHAT POINT `t` WRITES BACK is block `t` of `result` of the arguments. -/
theorem flushed_eq (c : Dev nD) (t : Fin cfg0.N) :
    (dats m 0 c).flushed 2 t
      = ((cfg0.win 2).blk t).view.read (Elt Ideal)
          (result (m ((c : Thread nD τ).loc main_arg0)) (m ((c : Thread nD τ).loc main_arg1))) := by
  rw [Cert.KernelIdeal.Value.flushed2]
  unfold out0_2
  rw [View.canon_unit_zero zeros3]
  simp only [View.ld_unit_zero (S := S1x64x4x512) zeros4, View.ld_unit_zero (S := S1x1024x512) zeros3]
  obtain ⟨-, -, -, -, -, -, -, e0, e1, e2⟩ := block_indices t
  funext j
  refine (block_entry (m ((c : Thread nD τ).loc main_arg0)) (m ((c : Thread nD τ).loc main_arg1)) (batchOf t)
    (iblk m c 0 t) (iblk m c 1 t) (queryBlock_apply m c t) (supportBlock_apply m c t) j).trans ?_
  have hj0 : (j 0).val < 1 := (j 0).isLt
  have hb : batchOf t = ((cfg0.win 2).blk t).view.emb j (0 : Fin 3) :=
    Fin.ext (by show t.val = win0_2.index t (0 : Fin 3) * 1 + 1 * (j 0).val; omega)
  have hr : (j 1 : Fin 1024) = ((cfg0.win 2).blk t).view.emb j (1 : Fin 3) :=
    Fin.ext (by show (j 1).val = win0_2.index t (1 : Fin 3) * 1024 + 1 * (j 1).val; omega)
  have hw : (j 2 : Fin 64) = ((cfg0.win 2).blk t).view.emb j (2 : Fin 3) :=
    Fin.ext (by show (j 2).val = win0_2.index t (2 : Fin 3) * 64 + 1 * (j 2).val; omega)
  exact congr (congr (congrArg (expanded _ _) hb) hr) hw

/-! ## The blocks tile the result -/

/-- An index of the result is in point `t`'s block iff each coordinate is in the block's range on its axis. -/
theorem mem_block (t : Fin cfg0.N) (i : S8x1024x64.Idx) :
    i ∈ ((cfg0.win 2).blk t).view.set ↔ ∀ a : Fin 3, win0_2.index t a * S1x1024x64.size a ≤ (i a).val
      ∧ (i a).val < win0_2.index t a * S1x1024x64.size a + S1x1024x64.size a := by
  show i ∈ ((View.whole main_v1).slice (win0_2.rect t)).set ↔ _
  rw [View.set_slice_whole, Rect.mem_set_unit]
  exact Iff.rfl

/-- Every index of the result is in the block of the point of its batch. -/
theorem cover (i : S8x1024x64.Idx) :
    ∃ t : Fin cfg0.N, (cfg0.win 2).flush t = true ∧ i ∈ ((cfg0.win 2).blk t).view.set := by
  have hi0 : (i 0).val < 8 := (i 0).isLt
  have hi1 : (i 1).val < 1024 := (i 1).isLt
  have hi2 : (i 2).val < 64 := (i 2).isLt
  obtain ⟨t, ht⟩ : ∃ t : Fin cfg0.N, t.val = (i 0).val :=
    ⟨⟨(i 0).val, by show (i 0).val < grid0.N; rw [N_0]; exact hi0⟩, rfl⟩
  obtain ⟨-, -, -, -, -, -, -, e0, e1, e2⟩ := block_indices t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-! ## The array after the run, and the run -/

/-- THE RESULT ARRAY after the run is `result` of the arguments. -/
theorem final (c : Dev nD) :
    (dats m 0 c).arrAt 2 cfg0.N = result (m ((c : Thread nD τ).loc main_arg0)) (m ((c : Thread nD τ).loc main_arg1)) :=
  (dats m 0 c).arrAt_eq_of_cover 2 _ (fun t _ => flushed_eq m c t) cover

/-- Every weakly fair execution of the idealized kernel program terminates with the result array at `result` of the
    arguments and the arguments unchanged. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.ProtoDist.Kernel

end
-- ==== Proof.Finite.lean ====
/-
  What the precondition says: every entry of both arguments is a real number.

  The printed predicate is `jnp.all(|a0| < +∞) ∧ jnp.all(|a1| < +∞)`: per argument an absolute value, a comparison with
  the pattern `0x7F800000` (which denotes `+∞`), a reduction of the resulting bits by `and` over all three axes, and the
  `and` of the two reduced bits. That the result is 1 gives each comparison bit 1 at every index; on the extended reals
  `max x (-x) < +∞` excludes exactly `x = +∞` and `x = -∞` (`max (-∞) (+∞) = +∞`), so `x` is a real number.
-/
import proofs.«166089_j27393301414373_1_alg».proof.Pre_finite_inputs
import Idealize.ShloMosaic.Lib.ReduceAll
import Idealize.ShloMosaic.Lib.ValueIdx
import Idealize.ShloMosaic.PureOps.Ideal.Laws

noncomputable section

namespace Cert.ProtoDist.Finite

open Idealize.ShloMosaic Idealize.ShloMosaic.ValueIdx Cert.Pre_finite_inputs

variable [Cert.Pre_finite_inputs.Facts]

/-- The rank-0 shape has one index. -/
instance : Subsingleton S_.Idx := ⟨fun a b => funext fun d => d.elim0⟩

/-- The pattern `0x7F800000` denotes `+∞`. -/
theorem inf_eq : Ideal.ofBits .f32 0x7F800000#32 = ⊤ := by
  simp [Ideal.ofBits, Ideal.ieee]

/-- An extended real whose absolute value compares below `+∞` is a real number. -/
theorem real_of_abs_lt_inf (x : EReal)
    (h : Ideal.cmp .olt (max x (-x)) (Ideal.ofBits .f32 0x7F800000#32) = 1#1) : ∃ r : ℝ, x = (r : EReal) := by
  rw [inf_eq] at h
  induction x using EReal.rec with
  | bot => exact absurd h (by simp [Ideal.cmp])
  | coe r => exact ⟨r, rfl⟩
  | top => exact absurd h (by simp [Ideal.cmp])

/-- Under the precondition every entry of the queries and of the support rows is a real number. -/
theorem entries_real (a0 : FVec Ideal S8x1024x512 .f32) (a1 : FVec Ideal S8x256x512 .f32)
    (h : fn (F := Ideal) a0 a1 = fun _ => 1#1) :
    (∀ i, ∃ r : ℝ, a0 i = (r : EReal)) ∧ (∀ i, ∃ r : ℝ, a1 i = (r : EReal)) := by
  have h0 := congrFun h ix0
  dsimp only [fn] at h0
  obtain ⟨hq, hs⟩ := IntOp.andi_eq_one.1 h0
  exact ⟨fun i => real_of_abs_lt_inf (a0 i) (Host.reduce_andi_all _ _ _ _ _ hq i),
    fun i => real_of_abs_lt_inf (a1 i) (Host.reduce_andi_all _ _ _ _ _ hs i)⟩

end Cert.ProtoDist.Finite

end
-- ==== Proof.lean ====
/-
  Negated squared distance of queries to class prototypes: the kernel's multiplied-out form against the reference's
  definition.

  Both programs take queries `q : [8, 1024, 512]` and support rows `s : [8, 256, 512]`, the 256 rows of a batch being 64
  classes of 4 shots. With the prototype `p[b, w, c] = (Σ_k s[b, 4 w + k, c]) / 4`, the reference computes
  `-Σ_c (q[b, r, c] - p[b, w, c])²` directly, and the kernel, one batch per grid point, computes
  `2 · Σ_c q p - Σ_c q² - Σ_c p²` with the cross term as a matrix product. On the extended reals, where each operation is
  the exact one and a change of float format is the identity, the two agree at every index once every entry of `q` and `s`
  is a real number: that is what the precondition `finite_inputs` gives (`Finite.entries_real`), and the law is
  `(a - p)² = a² - 2 a p + p²` summed over the features (`expanded_eq_negSqDist`). Without finiteness it can fail,
  since `∞ - ∞ = -∞` there.

  The kernel's result array after the run is `Kernel.result` of the arguments (KernelValue.lean: the payload at an entry,
  Payload.lean; the 8 blocks tile the array); the reference's is `negSqDist` at every index (RefValue.lean). The three
  frames are the generated ones, the reference's being its generated run with the result dropped. The idealized kernel is
  the kernel's own text read at the ideal instance: the idealization rewrote nothing, so `preserves` is `True`.
-/
import proofs.«166089_j27393301414373_1_alg».proof.Defs
import proofs.«166089_j27393301414373_1_alg».proof.Proof.Gen.Kernel
import proofs.«166089_j27393301414373_1_alg».proof.Proof.Gen.Kernel.Skeleton
import proofs.«166089_j27393301414373_1_alg».proof.Proof.Gen.Kernel.Launch
import proofs.«166089_j27393301414373_1_alg».proof.Proof.Gen.Kernel.Points
import proofs.«166089_j27393301414373_1_alg».proof.Proof.Gen.Kernel.Frame
import proofs.«166089_j27393301414373_1_alg».proof.Proof.Gen.KernelIdeal
import proofs.«166089_j27393301414373_1_alg».proof.Proof.Gen.KernelIdeal.Skeleton
import proofs.«166089_j27393301414373_1_alg».proof.Proof.Gen.KernelIdeal.Launch
import proofs.«166089_j27393301414373_1_alg».proof.Proof.Gen.KernelIdeal.Points
import proofs.«166089_j27393301414373_1_alg».proof.Proof.Gen.KernelIdeal.Frame
import proofs.«166089_j27393301414373_1_alg».proof.Proof.Gen.ReferenceIdeal
import proofs.«166089_j27393301414373_1_alg».proof.Proof.Gen.Pre_finite_inputs
import proofs.«166089_j27393301414373_1_alg».proof.Proof.Gen.KernelIdeal.Value
import proofs.«166089_j27393301414373_1_alg».proof.Proof.Gen.ReferenceIdeal.Run
import proofs.«166089_j27393301414373_1_alg».proof.Proof.Gen.ReferenceIdeal.Read
import proofs.«166089_j27393301414373_1_alg».proof.Proof.Spec
import proofs.«166089_j27393301414373_1_alg».proof.Proof.RefValue
import proofs.«166089_j27393301414373_1_alg».proof.Proof.Payload
import proofs.«166089_j27393301414373_1_alg».proof.Proof.KernelValue
import proofs.«166089_j27393301414373_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments, both programs end with the same result array: the kernel's
    `2 Σ q p - Σ q² - Σ p²` is the reference's `-Σ (q - p)²` at every index, every entry being a real number under the
    precondition. -/
theorem algebraic : Cert.algebraic_KernelIdeal_ReferenceIdeal := by
  intro m ρ m' ρ' hpre hagree
  refine ⟨fun c => Cert.ProtoDist.Kernel.result
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.ProtoDist.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v11_eq _ _).trans ((Cert.ProtoDist.Reference.result_eq _ _).trans ?_)
  obtain ⟨hq, hs⟩ := Cert.ProtoDist.Finite.entries_real _ _ (hpre c)
  funext i
  exact (Cert.ProtoDist.expanded_eq_negSqDist _ _ hq hs (i 0) (i 1) (i 2)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
